-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S_ : Shape := ⟨0, ![]⟩
abbrev S4096 : Shape := ⟨1, ![4096]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x2048 32) (main_arg2 : FVec F S_ .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4096 .f32 := Host.absf main_arg3
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v7 main_v11
  main_v12
-- ==== Kernel.lean ====
abbrev S4x2048x4096 : Shape := ⟨3, ![4, 2048, 4096]⟩
abbrev S4096x2048 : Shape := ⟨2, ![4096, 2048]⟩
abbrev S_ : Shape := ⟨0, ![]⟩
abbrev S4096 : Shape := ⟨1, ![4096]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S8192x4096 : Shape := ⟨2, ![8192, 4096]⟩
abbrev S1024x4096 : Shape := ⟨2, ![1024, 4096]⟩
abbrev S4096x512 : Shape := ⟨2, ![4096, 512]⟩
abbrev S512 : Shape := ⟨1, ![512]⟩
abbrev S1024x512 : Shape := ⟨2, ![1024, 512]⟩
abbrev S1x512 : Shape := ⟨2, ![1, 512]⟩

abbrev nBuf : Space → Nat
  | .hbm => 26
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S_, .f32⟩
  | .hbm, ⟨3, _⟩ => ⟨S4096, .f32⟩
  | .hbm, ⟨4, _⟩ => ⟨S_, .i32⟩
  | .hbm, ⟨5, _⟩ => ⟨S4096x2048, .i32⟩
  | .hbm, ⟨6, _⟩ => ⟨S4096x2048, .i32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S4096x2048x1, .i32⟩
  | .hbm, ⟨11, _⟩ => ⟨S4096x2048x1, .i32⟩
  | .hbm, ⟨12, _⟩ => ⟨S4096x2048x2, .i32⟩
  | .hbm, ⟨13, _⟩ => ⟨S4096x4096, .i32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S4096x4096, .bf16⟩
  | .hbm, ⟨22, _⟩ => ⟨S8192x4096, .f32⟩
  | .hbm, ⟨23, _⟩ => ⟨S8192x4096, .bf16⟩
  | .hbm, ⟨24, _⟩ => ⟨S8192x4096, .f32⟩
  | .hbm, ⟨25, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bitsLt_bf16_f32 : FTy.bits .bf16 < FTy.bits .f32
  transposes_S4096x4096_S4096x4096_1_0 : S4096x4096.Transposes [1, 0] S4096x4096
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v16) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S_ : Shape := ⟨0, ![]⟩
abbrev S4096 : Shape := ⟨1, ![4096]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S_, .f32⟩
  | .hbm, ⟨3, _⟩ => ⟨S4096, .f32⟩
  | .hbm, ⟨4, _⟩ => ⟨S_, .i32⟩
  | .hbm, ⟨5, _⟩ => ⟨S4096x2048, .i32⟩
  | .hbm, ⟨6, _⟩ => ⟨S4096x2048, .i32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S4096x2048x1, .i32⟩
  | .hbm, ⟨11, _⟩ => ⟨S4096x2048x1, .i32⟩
  | .hbm, ⟨12, _⟩ => ⟨S4096x2048x2, .i32⟩
  | .hbm, ⟨13, _⟩ => ⟨S4096x4096, .i32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LinearSpec.lean ====
/-
  The mathematics both programs compute, stated once over literal shapes and the extended reals.

  A linear layer with a 4096 × 4096 weight `w` (row `o` holds output feature `o`'s coefficients) and a bias `b`:
  `linear x w b [β, s, o] = Σ_k x[β, s, k] · w[o, k] + b[o]`.
  The kernel computes it on the flattened activations (8192 rows = 4 · 2048) against the transposed weight:
  `matOut X WT b [r, o] = Σ_k X[r, k] · WT[k, o] + b[o]`, and reshapes back.
  `linear_of_matOut` joins the two: flattening and un-flattening are row-major re-indexings (row r = β · 2048 + s)
  and the transposed weight read at [k, o] is the weight at [o, k]; no algebraic law beyond that is used, so no
  finiteness hypothesis is needed.
-/
import Idealize.ShloMosaic.PureOps.Ideal
import Idealize.ShloMosaic.Lib.ValueIdx
import Idealize.ShloMosaic.Lib.Pipeline.Value

noncomputable section

namespace Cert.Linear

open Idealize.ShloMosaic Idealize.ShloMosaic.ValueIdx

abbrev Sx : Shape := ⟨3, ![4, 2048, 4096]⟩
abbrev Sw : Shape := ⟨2, ![4096, 4096]⟩
abbrev Sb : Shape := ⟨1, ![4096]⟩
abbrev Sflat : Shape := ⟨2, ![8192, 4096]⟩

/-- `x · wᵀ + b` over the batch and sequence axes: entry [β, s, o] is `Σ_k x[β, s, k] · w[o, k] + b[o]`. -/
def linear (x : Sx.Idx → EReal) (w : Sw.Idx → EReal) (b : Sb.Idx → EReal) : Sx.Idx → EReal :=
  fun i => (∑ k : Fin 4096, x (ix3 (i 0) (i 1) k) * w (ix2 (i 2) k)) + b (ix1 (i 2))

/-- The flattened product against a weight stored feature-minor: entry [r, o] is `Σ_k X[r, k] · WT[k, o] + b[o]`. -/
def matOut (X : Sflat.Idx → EReal) (WT : Sw.Idx → EReal) (b : Sb.Idx → EReal) : Sflat.Idx → EReal :=
  fun j => (∑ k : Fin 4096, X (ix2 (j 0) k) * WT (ix2 k (j 1))) + b (ix1 (j 1))

/-- Row `β · 2048 + s` of the flattened activations. -/
abbrev flatRow (β : Fin 4) (s : Fin 2048) : Fin 8192 := ⟨β.val * 2048 + s.val, by have := β.isLt; have := s.isLt; omega⟩

/-- The flattened product on the flattened activations and the transposed weight, un-flattened, is the linear layer. -/
theorem linear_of_matOut (x : Sx.Idx → EReal) (w : Sw.Idx → EReal) (b : Sb.Idx → EReal)
    (h1 : Sx.ShapeCasts Sflat) (h2 : Sflat.ShapeCasts Sx) (ht : Sw.Transposes [1, 0] Sw) :
    shapeCast Sx (matOut (shapeCast Sflat x h1) (transpose Sw [1, 0] w ht) b) h2 = linear x w b := by
  funext i
  have hi0 : (i 0).val < 4 := (i 0).isLt
  have hi1 : (i 1).val < 2048 := (i 1).isLt
  have hi2 : (i 2).val < 4096 := (i 2).isLt
  rw [shapeCast_apply _ h2 i (ix2 (flatRow (i 0) (i 1)) (i 2)) (by
    rewrite [Shape.rowMajor_val_two, Shape.rowMajor_val_three]
    show ((i 0).val * 2048 + (i 1).val) * 4096 + (i 2).val = ((i 0).val * 2048 + (i 1).val) * 4096 + (i 2).val
    rfl)]
  unfold matOut linear
  refine congrArg₂ (· + ·) (Finset.sum_congr rfl fun k _ => ?_) rfl
  have hk : k.val < 4096 := k.isLt
  rw [shapeCast_apply x h1 (ix2 (flatRow (i 0) (i 1)) k) (ix3 (i 0) (i 1) k) (by
      rewrite [Shape.rowMajor_val_two, Shape.rowMajor_val_three]
      show ((i 0).val * 2048 + (i 1).val) * 4096 + k.val = ((i 0).val * 2048 + (i 1).val) * 4096 + k.val
      rfl),
    transpose_apply [1, 0] w ht (ix2 k (i 2)) (ix2 (i 2) k) (fun b => match b with
      | ⟨0, _⟩ => rfl
      | ⟨1, _⟩ => rfl)]

end Cert.Linear

end
-- ==== Proof.KernelBlock.lean ====
/-
  What the kernel body stores for one grid point, read at an entry.

  The body loads a 1024 × 4096 block of activations, a 4096 × 512 block of the transposed weight and 512 bias
  entries, multiplies the two blocks into a zero accumulator and adds the bias along the rows. Over the extended
  reals the product into zero is the plain sum over the 4096 contracted positions, so entry [p, q] of what is stored is
  `Σ_k xblk[p, k] · wblk[k, q] + bias[q]`.
-/
import proofs.«401762_j33208687132984_2_alg».proof.Proof.Gen.KernelIdeal.Skeleton
import proofs.«401762_j33208687132984_2_alg».proof.Proof.LinearSpec
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.TcCoe Idealize.ShloMosaic.ValueIdx
open Cert.Linear (matOut)

/-- Output row `p` takes the left operand's row `p`. -/
theorem lhs_axis0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
/-- The left operand's column is the contracted position. -/
theorem lhs_axis1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
/-- The right operand's row is the contracted position. -/
theorem rhs_axis0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
/-- Output column `q` takes the right operand's column `q`. -/
theorem rhs_axis1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The block product into a zero accumulator, at entry [p, q]: the sum over the contracted position. -/
theorem matmul_at (a : FVec Ideal S1024x4096 .bf16) (b : FVec Ideal S4096x512 .bf16) (p : Fin 1024) (q : Fin 512) :
    matmul dot_S1024x4096_S4096x512_S1024x512_1_0_0_1_n_n none a b (constant S1024x512 .f32 0x00000000#32) (ix2 p q)
      = ∑ k : Fin 4096, a (ix2 p k) * b (ix2 k q) := by
  simp only [matmul]
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun d => Fin.ext (by
    match d with
    | ⟨0, _⟩ => exact lhs_axis0 _ _
    | ⟨1, _⟩ => exact (lhs_axis1 _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun d => Fin.ext (by
    match d with
    | ⟨0, _⟩ => exact (rhs_axis0 _ _).trans hk
    | ⟨1, _⟩ => exact rhs_axis1 _ _)
  rw [el, er]

/-- What the body stores, at entry [p, q]: the block product's entry plus the bias entry of column `q`. -/
theorem stored_at (xb : Vec Ideal S1024x4096 .bf16) (wb : Vec Ideal S4096x512 .bf16) (bb : Vec Ideal S512 .f32) (p : Fin 1024) (q : Fin 512) :
    k0_pay1 (F := Ideal) xb wb bb (ix2 p q) = (∑ k : Fin 4096, xb (ix2 p k) * wb (ix2 k q)) + bb (ix1 q) := by
  unfold k0_pay1
  rw [addf_apply, shapeCast_self, shapeCast_self, matmul_at,
    broadcastTo_apply _ broadcasts_S1x512_S1024x512 (ix2 p q) (ix2 (⟨0, Nat.one_pos⟩ : Fin 1) q) (fun d => match d with
      | ⟨0, _⟩ => by show 0 = if (1 : Nat) = 1 then 0 else _; rw [if_pos rfl]
      | ⟨1, _⟩ => by show q.val = if (512 : Nat) = 1 then 0 else q.val; rw [if_neg (by decide)]),
    shapeCast_apply bb shapeCasts_S512_S1x512 (ix2 (⟨0, Nat.one_pos⟩ : Fin 1) q) (ix1 q) (by
      rewrite [Shape.rowMajor_val_one, Shape.rowMajor_val_two]
      show q.val = 0 * 512 + q.val
      omega)]

/-- The same against whole arrays: if the activation block's row `y 0` is row `i 0` of `X`, the weight block's column
    `y 1` is column `i 1` of `WT`, and the bias block's entry `y 1` is entry `i 1` of `B`, then what the body stores
    at `y` is the flattened product at `i`. -/
theorem stored_eq_matOut (xb : Vec Ideal S1024x4096 .bf16) (wb : Vec Ideal S4096x512 .bf16) (bb : Vec Ideal S512 .f32)
    (X : S8192x4096.Idx → EReal) (WT : S4096x4096.Idx → EReal) (B : S4096.Idx → EReal)
    (y : S1024x512.Idx) (i : S8192x4096.Idx)
    (hx : ∀ k : Fin 4096, xb (ix2 (y 0) k) = X (ix2 (i 0) k))
    (hw : ∀ k : Fin 4096, wb (ix2 k (y 1)) = WT (ix2 k (i 1)))
    (hb : bb (ix1 (y 1)) = B (ix1 (i 1))) :
    k0_pay1 (F := Ideal) xb wb bb y = matOut X WT B i := by
  obtain ⟨p, q, rfl⟩ : ∃ (p : Fin 1024) (q : Fin 512), y = ix2 p q := ⟨y 0, y 1, eq_ix2 y⟩
  rw [stored_at]
  unfold matOut
  refine congrArg₂ (· + ·) (Finset.sum_congr rfl fun k _ => ?_) hb
  rw [hx k, hw k]

end Cert.KernelIdeal.Block

end
-- ==== Proof.KernelArray.lean ====
/-
  The kernel's output array after the launch.

  The grid is 8 × 8. Point (a, b) reads activation rows [1024a, 1024a + 1024), weight columns [512b, 512b + 512) and the
  same 512 bias entries, and writes back the 1024 × 512 block at block position (a, b) of the 8192 × 4096 result. Each block
  written back is that block of ONE array, the flattened product `matOut` of the three arrays the launch finds, and the 64
  blocks tile the result (row r lies in block row r / 1024, column o in block column o / 512), so the result array ends
  holding `matOut` of them.
-/
import proofs.«401762_j33208687132984_2_alg».proof.Proof.Gen.KernelIdeal.Frame
import proofs.«401762_j33208687132984_2_alg».proof.Proof.KernelBlock

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat)
open Cert.Linear (matOut)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The flattened activations, the transposed weight and the bias as the launch finds them. -/
abbrev actArr (c : Dev nD) : S8192x4096.Idx → EReal := V m c main_v16
abbrev wtArr (c : Dev nD) : S4096x4096.Idx → EReal := V m c main_v14
abbrev biasArr (c : Dev nD) : S4096.Idx → EReal := V m c main_arg3

/-- How the four windows' block positions are related at every grid point: the activation block follows the output's block
    row and starts at column 0; the weight block starts at row 0 and follows the output's block column, as does the bias block. -/
theorem block_positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 1) = win0_3.index t (1 : Fin 2) :=
  (by decide +kernel : ∀ t : Fin grid0.N, _)

/-- Every block position of the 8 × 8 tiling is some grid point's. -/
theorem block_onto : ∀ (a : Fin 8) (b : Fin 8), ∃ t : Fin cfg0.N, win0_3.index t = ![a.val, b.val] :=
  (by decide +kernel : ∀ (a : Fin 8) (b : Fin 8), ∃ t : Fin grid0.N, win0_3.index t = ![a.val, b.val])

/-- What grid point `t` writes back is block `t` of the flattened product of the arrays the launch finds. -/
theorem flushed_eq (c : Dev nD) (t : Fin cfg0.N) :
    (dats m 0 c).flushed 3 t = ((cfg0.win 3).blk t).view.read (Elt Ideal) (matOut (actArr m c) (wtArr m c) (biasArr m c)) := by
  show (cfg0.win 3).cut (grid0.coords t) ((dats m 0 c).after 3 t) = _
  rw [after0_3]
  unfold out0_3
  rw [View.canon_unit_zero zeros2]
  simp only [View.ld_unit_zero (S := S1024x4096) zeros2, View.ld_unit_zero (S := S4096x512) zeros2, View.ld_unit_zero (S := S512) zeros1]
  obtain ⟨e0, e1, e2, e3, e4⟩ := block_positions t
  funext j
  show k0_pay1 (F := Ideal) (iblk m c 0 t) (iblk m c 1 t) (iblk m c 2 t) j = matOut (actArr m c) (wtArr m c) (biasArr m c) (((cfg0.win 3).blk t).view.emb j)
  have hj0 : (j 0).val < 1024 := (j 0).isLt
  have hj1 : (j 1).val < 512 := (j 1).isLt
  refine Block.stored_eq_matOut (iblk m c 0 t) (iblk m c 1 t) (iblk m c 2 t) (actArr m c) (wtArr m c) (biasArr m c) j (((cfg0.win 3).blk t).view.emb j) (fun k => ?_) (fun k => ?_) ?_
  · show V m c main_v16 (((cfg0.win 0).blk t).view.emb (ix2 (j 0) k)) = V m c main_v16 (ix2 ((((cfg0.win 3).blk t).view.emb j) 0) k)
    refine congrArg (V m c main_v16) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  · show V m c main_v14 (((cfg0.win 1).blk t).view.emb (ix2 k (j 1))) = V m c main_v14 (ix2 k ((((cfg0.win 3).blk t).view.emb j) 1))
    refine congrArg (V m c main_v14) (funext fun a => Fin.ext ?_)
    match a with
    | ⟨0, _⟩ => show win0_1.index t (0 : Fin 2) * 4096 + 1 * k.val = k.val; omega
    | ⟨1, _⟩ => show win0_1.index t (1 : Fin 2) * 512 + 1 * (j 1).val = win0_3.index t (1 : Fin 2) * 512 + 1 * (j 1).val; omega
  · show V m c main_arg3 (((cfg0.win 2).blk t).view.emb (ix1 (j 1))) = V m c main_arg3 (ix1 ((((cfg0.win 3).blk t).view.emb j) 1))
    refine congrArg (V m c main_arg3) (funext fun a => Fin.ext ?_)
    match a with
    | ⟨0, _⟩ => show win0_2.index t (0 : Fin 1) * 512 + 1 * (j 1).val = win0_3.index t (1 : Fin 2) * 512 + 1 * (j 1).val; omega

/-- An entry of the result lies in point `t`'s block exactly when each coordinate lies in the block's range. -/
theorem mem_block (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v17).slice (win0_3.rect t)).set ↔ _
  rw [View.set_slice_whole, Rect.mem_set_unit]
  exact Iff.rfl

/-- Every entry of the result is written back by some grid point: the one at block row r / 1024, block column o / 512. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the launch: the flattened product of the arrays the launch finds. -/
theorem result_array (c : Dev nD) : (dats m 0 c).arrAt 3 cfg0.N = matOut (actArr m c) (wtArr m c) (biasArr m c) :=
  (dats m 0 c).arrAt_eq_of_cover 3 (matOut (actArr m c) (wtArr m c) (biasArr m c)) (fun t _ => flushed_eq m c t) (covered)

end Cert.KernelIdeal.Arr

end
-- ==== Proof.KernelHost.lean ====
/-
  The kernel program around its launch, read at the extended reals.

  Before the launch the program unpacks the 4-bit weights, dequantizes them (subtract 8, multiply by the scale), narrows the
  result to bf16 and transposes it; it flattens the activations to 8192 rows and narrows them too. At the extended reals a
  change of float format is the identity, so the launch finds the flattened activations and the transposed dequantized
  weight. After the launch the 8192 × 4096 result is reshaped to 4 × 2048 × 4096. With the result array known to be the
  flattened product, the program's result is the linear layer of the activations, the dequantized weight and the bias.
-/
import proofs.«401762_j33208687132984_2_alg».proof.Proof.Gen.KernelIdeal.Frame
import proofs.«401762_j33208687132984_2_alg».proof.Proof.KernelArray
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Linear (matOut linear)

variable (m : (ℓ : Loc nD τ sig) → Buf (Elt Ideal) ℓ) (ρ : Dev nD → PrngReg)

/-- The dequantized weight: low and high nibble of each packed word side by side (4096 × 2048 × 2 read as 4096 × 4096),
    converted to a real, minus 8, times the scale. -/
def dequant (wp : (⟨S4096x2048, .i32⟩ : BufTy).Contents (Elt Ideal)) (sc : (⟨S_, .f32⟩ : BufTy).Contents (Elt Ideal)) :
    (⟨S4096x4096, .f32⟩ : BufTy).Contents (Elt Ideal) :=
  mulf (subf (sitofp .f32 (shapeCast _ (concatenate S4096x2048x2 2 [⟨S4096x2048x1, (broadcastInDim S4096x2048x1 ![0, 1] bcast_S4096x2048_S4096x2048x1_0_1 (andi wp (broadcastInDim S4096x2048 ![] bcast_S_S4096x2048 (constantI S_ 32 15#32))))⟩, ⟨S4096x2048x1, (broadcastInDim S4096x2048x1 ![0, 1] bcast_S4096x2048_S4096x2048x1_0_1 (Host.shrsi wp (broadcastInDim S4096x2048 ![] bcast_S_S4096x2048 (constantI S_ 32 4#32))))⟩] concatenates_S4096x2048x1_S4096x2048x1_S4096x2048x2_d2) shapeCasts_S4096x2048x2_S4096x4096)) (broadcastInDim S4096x4096 ![] bcast_S_S4096x4096 (constant (F := Ideal) S_ .f32 0x41000000#32))) (broadcastInDim S4096x4096 ![] bcast_S_S4096x4096 sc)

/-- The launch finds the activations flattened (and narrowed, which changes nothing here). -/
theorem act_eq (c : Dev nD) :
    Arr.actArr m c = shapeCast S8192x4096 (m ((c : Thread nD τ).loc main_arg0)) shapeCasts_S4x2048x4096_S8192x4096 := by
  show StableHlo.after hostOps0 (fun b => m (c, b)) (Proc.devRef .tc main_v16) = _
  after_results
  rfl

/-- The launch finds the dequantized weight transposed (and narrowed, which changes nothing here). -/
theorem wt_eq (c : Dev nD) :
    Arr.wtArr m c = transpose S4096x4096 [1, 0] (dequant (m ((c : Thread nD τ).loc main_arg1)) (m ((c : Thread nD τ).loc main_arg2))) transposes_S4096x4096_S4096x4096_1_0 := by
  show StableHlo.after hostOps0 (fun b => m (c, b)) (Proc.devRef .tc main_v14) = _
  after_results
  rfl

/-- The launch finds the bias as given. -/
theorem bias_eq (c : Dev nD) : Arr.biasArr m c = m ((c : Thread nD τ).loc main_arg3) := V_main_arg3 m c

/-- The program's result buffer after the lines that follow the launch: the launch's result array, reshaped. -/
theorem tail_eq (c : Dev nD) :
    Pipeline.afterTail₀ cfgs (dats m) 0 (V0 m) [hostOps1] c main_v18
      = shapeCast S4x2048x4096 ((dats m 0 c).arrAt 3 cfg0.N) shapeCasts_S8192x4096_S4x2048x4096 := by
  unfold Pipeline.afterTail₀
  show StableHlo.after hostOps1 _ (Proc.devRef .tc main_v18) = _
  after_results
  exact congrArg (fun a => shapeCast S4x2048x4096 a shapeCasts_S8192x4096_S4x2048x4096)
    (Pipeline.withArrays_arr spec0 launch0.win.arr_inj c (V0 m c) (fun w => (dats m 0 c).arrAt w cfg0.N) 3)

/-- The program's result: the linear layer of the activations, the dequantized weight and the bias. -/
theorem result_eq (c : Dev nD) :
    Pipeline.afterTail₀ cfgs (dats m) 0 (V0 m) [hostOps1] c main_v18
      = linear (m ((c : Thread nD τ).loc main_arg0)) (dequant (m ((c : Thread nD τ).loc main_arg1)) (m ((c : Thread nD τ).loc main_arg2))) (m ((c : Thread nD τ).loc main_arg3)) := by
  rw [tail_eq, Arr.result_array, act_eq, wt_eq, bias_eq]
  exact Cert.Linear.linear_of_matOut _ _ _ _ _ _

/-- Every weakly fair execution of the kernel program ends with its result buffer at the linear layer of its arguments and
    the arguments unchanged. -/
theorem run : θ_run defs (onTc (τ := τ) (main (F := Ideal))) ⟨m, fun _ => 0, ρ⟩ fun r => ∀ c : Dev nD,
      r.2.mem ((c.tc : Thread nD τ).loc main_v18) = linear (m ((c : Thread nD τ).loc main_arg0)) (dequant (m ((c : Thread nD τ).loc main_arg1)) (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Host

end
-- ==== Proof.RefLinear.lean ====
/-
  The reference program's result, read at an entry, is the linear layer.

  The reference contracts the activations' last axis with the dequantized weight's second axis and adds the bias
  broadcast along the last axis: entry [β, s, o] is `Σ_k x[β, s, k] · w[o, k] + b[o]`, which is `linear` of the
  activations, the dequantized weight and the bias.
-/
import proofs.«401762_j33208687132984_2_alg».proof.Proof.Gen.ReferenceIdeal.Read
import proofs.«401762_j33208687132984_2_alg».proof.Proof.LinearSpec

noncomputable section

namespace Cert.ReferenceIdeal.RefValue

open Cert.ReferenceIdeal Cert.ReferenceIdeal.Gen Cert.ReferenceIdeal.Read Idealize.ShloMosaic Idealize.ShloMosaic.ValueIdx
open Cert.Linear (linear)

/-- The reference's last stage as the linear layer of its first argument, its dequantized-weight stage and its bias argument. -/
theorem result_is_linear (x0 : (⟨S4x2048x4096, .f32⟩ : BufTy).Contents (Elt Ideal)) (x1 : (⟨S4096x2048, .i32⟩ : BufTy).Contents (Elt Ideal))
    (x2 : (⟨S_, .f32⟩ : BufTy).Contents (Elt Ideal)) (x3 : (⟨S4096, .f32⟩ : BufTy).Contents (Elt Ideal)) :
    val_main_v16 (F := Ideal) x0 x1 x2 x3 = linear x0 (val_main_v12 (F := Ideal) x1 x2) x3 := by
  funext i
  have el : ∀ k : Fin 4096, lidx_main_v13 i k = ix3 (i 0) (i 1) k := fun k => funext fun a => Fin.ext (by
    match a with
    | ⟨0, _⟩ => rfl
    | ⟨1, _⟩ => rfl
    | ⟨2, _⟩ => rfl)
  have er : ∀ k : Fin 4096, ridx_main_v13 i k = ix2 (i 2) k := fun k => funext fun a => Fin.ext (by
    match a with
    | ⟨0, _⟩ => rfl
    | ⟨1, _⟩ => rfl)
  have eb : idx_main_v14 (idx_main_v15 i) = ix1 (i 2) := funext fun a => Fin.ext (by
    match a with
    | ⟨0, _⟩ => rfl)
  rw [val_main_v16_apply, val_main_v13_apply, val_main_v15_apply, val_main_v14_apply]
  unfold linear
  simp only [el, er, eb]
  rfl

end Cert.ReferenceIdeal.RefValue

end
-- ==== Proof.lean ====
/-
  The certificate's claims, assembled.

  Both programs dequantize the packed 4-bit weight by the same operations (low and high nibble side by side, minus 8, times the
  scale) and both compute, over the extended reals, `Σ_k x[β, s, k] · w[o, k] + b[o]`: the reference as one contraction plus a
  broadcast bias, the kernel as an 8 × 8 grid of 1024 × 512 blocks of the flattened product against the transposed weight,
  reshaped back. The narrowing to bf16 the kernel applies to both operands is the identity at the extended reals. The two results
  are the same function of the arguments entry by entry; only re-indexing joins them, so the finiteness precondition is not used.

  The three frames are the generated ones (the reference's is its generated run with the result dropped); the idealization rewrote
  nothing, so `preserves` is trivial.
-/
import proofs.«401762_j33208687132984_2_alg».proof.Defs
import proofs.«401762_j33208687132984_2_alg».proof.Proof.Gen.Kernel
import proofs.«401762_j33208687132984_2_alg».proof.Proof.Gen.Kernel.Skeleton
import proofs.«401762_j33208687132984_2_alg».proof.Proof.Gen.Kernel.Launch
import proofs.«401762_j33208687132984_2_alg».proof.Proof.Gen.Kernel.Points
import proofs.«401762_j33208687132984_2_alg».proof.Proof.Gen.Kernel.Frame
import proofs.«401762_j33208687132984_2_alg».proof.Proof.Gen.KernelIdeal
import proofs.«401762_j33208687132984_2_alg».proof.Proof.Gen.KernelIdeal.Skeleton
import proofs.«401762_j33208687132984_2_alg».proof.Proof.Gen.KernelIdeal.Launch
import proofs.«401762_j33208687132984_2_alg».proof.Proof.Gen.KernelIdeal.Points
import proofs.«401762_j33208687132984_2_alg».proof.Proof.Gen.KernelIdeal.Frame
import proofs.«401762_j33208687132984_2_alg».proof.Proof.Gen.ReferenceIdeal
import proofs.«401762_j33208687132984_2_alg».proof.Proof.Gen.ReferenceIdeal.Run
import proofs.«401762_j33208687132984_2_alg».proof.Proof.Gen.ReferenceIdeal.Read
import proofs.«401762_j33208687132984_2_alg».proof.Proof.Gen.Pre_finite_inputs
import proofs.«401762_j33208687132984_2_alg».proof.Proof.KernelHost
import proofs.«401762_j33208687132984_2_alg».proof.Proof.RefLinear
import Idealize.ShloMosaic.Adequacy
import Idealize.ShloMosaic.Init

noncomputable section

namespace Cert.Proof

open Idealize.ShloMosaic Idealize.ShloMosaic.TcCoe Idealize.SL.Sem

/-- The kernel program's dequantized weight and the reference's dequantized-weight stage are the same operations of the packed
    words and the scale. -/
theorem dequant_eq (x1 : (⟨Cert.KernelIdeal.S4096x2048, .i32⟩ : BufTy).Contents (Elt Ideal)) (x2 : (⟨Cert.KernelIdeal.S_, .f32⟩ : BufTy).Contents (Elt Ideal)) :
    Cert.KernelIdeal.Host.dequant x1 x2 = Cert.ReferenceIdeal.Read.val_main_v12 (F := Ideal) x1 x2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with their result at the linear layer of the activations, the
    dequantized weight and the bias. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_is_linear,
    (hagree c).1, (hagree c).2.1, (hagree c).2.2.1, (hagree c).2.2.2, ← dequant_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
